-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x4096 : Shape := ⟨2, ![1024, 4096]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S4x2048x1024 .f32) (main_arg1 : FVec F S1024x4096 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Kernel.lean ====
abbrev S4x2048x1024 : Shape := ⟨3, ![4, 2048, 1024]⟩
abbrev S1024x4096 : Shape := ⟨2, ![1024, 4096]⟩
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S8192x4096 : Shape := ⟨2, ![8192, 4096]⟩
abbrev S512x1024 : Shape := ⟨2, ![512, 1024]⟩
abbrev S512 : Shape := ⟨1, ![512]⟩
abbrev S512x1 : Shape := ⟨2, ![512, 1]⟩
abbrev S4x2048x4096 : Shape := ⟨3, ![4, 2048, 4096]⟩

abbrev nBuf : Space → Nat
  | .hbm => 6
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S1024x4096, .f32⟩
  | .hbm, ⟨2, _⟩ => ⟨S8192x1024, .f32⟩
  | .hbm, ⟨3, _⟩ => ⟨S1024x4096, .bf16⟩
  | .hbm, ⟨4, _⟩ => ⟨S8192x4096, .f32⟩
  | .hbm, ⟨5, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  broadcasts_S1x1024_S1024x1024 : S1x1024.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  shapeCasts_S1024x1024_S1024x1024 : S1024x1024.ShapeCasts S1024x1024
  shapeCasts_S8192x4096_S4x2048x4096 : S8192x4096.ShapeCasts S4x2048x4096
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x4096.size a
  hwx0_0 : ∀ i : grid0.Coords, EltTy.bits .f32 = 32 ∨ (Rect.block (s := S1024x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x4096.size a
  hwx0_1 : ∀ i : grid0.Coords, EltTy.bits .bf16 = 32 ∨ (Rect.block (s := S1024x4096) S1024x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x4096.size a
  hwx1_1 : ∀ i : grid1.Coords, EltTy.bits .bf16 = 32 ∨ (Rect.block (s := S1024x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x4096.size a
  hwx1_2 : ∀ i : grid1.Coords, EltTy.bits .f32 = 32 ∨ (Rect.block (s := S8192x4096) S512x1024.size (cc1_transform_2 i) (hinb1_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x4096 : Shape := ⟨2, ![1024, 4096]⟩
abbrev S_ : Shape := ⟨0, ![]⟩
abbrev S4x2048 : Shape := ⟨2, ![4, 2048]⟩
abbrev S4x2048x1 : Shape := ⟨3, ![4, 2048, 1]⟩
abbrev S4096 : Shape := ⟨1, ![4096]⟩
abbrev S1x4096 : Shape := ⟨2, ![1, 4096]⟩
abbrev S4x2048x4096 : Shape := ⟨3, ![4, 2048, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x4096, .f32⟩
  | .hbm, ⟨2, _⟩ => ⟨S4x2048x1024, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S4x2048x1, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S4x2048x1024, .f32⟩
  | .hbm, ⟨13, _⟩ => ⟨S4x2048x1024, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S1024x4096, .f32⟩
  | .hbm, ⟨28, _⟩ => ⟨S_, .f32⟩
  | .hbm, ⟨29, _⟩ => ⟨S4096, .f32⟩
  | .hbm, ⟨30, _⟩ => ⟨S1x4096, .f32⟩
  | .hbm, ⟨31, _⟩ => ⟨S_, .f32⟩
  | .hbm, ⟨32, _⟩ => ⟨S1x4096, .f32⟩
  | .hbm, ⟨33, _⟩ => ⟨S1x4096, .f32⟩
  | .hbm, ⟨34, _⟩ => ⟨S_, .f32⟩
  | .hbm, ⟨35, _⟩ => ⟨S1x4096, .f32⟩
  | .hbm, ⟨36, _⟩ => ⟨S1x4096, .f32⟩
  | .hbm, ⟨37, _⟩ => ⟨S1024x4096, .f32⟩
  | .hbm, ⟨38, _⟩ => ⟨S1024x4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1024x4096, .f32⟩
  | .hbm, ⟨43, _⟩ => ⟨S1024x4096, .f32⟩
  | .hbm, ⟨44, _⟩ => ⟨S_, .f32⟩
  | .hbm, ⟨45, _⟩ => ⟨S1024x4096, .f32⟩
  | .hbm, ⟨46, _⟩ => ⟨S1024x4096, .f32⟩
  | .hbm, ⟨47, _⟩ => ⟨S1024x4096, .f32⟩
  | .hbm, ⟨48, _⟩ => ⟨S1024x4096, .f32⟩
  | .hbm, ⟨49, _⟩ => ⟨S1024x4096, .f32⟩
  | .hbm, ⟨50, _⟩ => ⟨S1024x4096, .f32⟩
  | .hbm, ⟨51, _⟩ => ⟨S1024x4096, .f32⟩
  | .hbm, ⟨52, _⟩ => ⟨S4x2048x4096, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_cst_8 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]

class Facts₀ : Prop where
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S_S4x2048x1024 : S_.BroadcastsInDim S4x2048x1024 (![] : Fin 0 → Fin S4x2048x1024.rank)
  reducesTo_S1024x4096_S4096_d0 : S1024x4096.ReducesTo [0] S4096
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S1024x4096_0_1 : S1x4096.BroadcastsInDim S1024x4096 (![0, 1] : Fin 2 → Fin S1024x4096.rank)
  bcast_S_S1024x4096 : S_.BroadcastsInDim S1024x4096 (![] : Fin 0 → Fin S1024x4096.rank)
  dot_S4x2048x1024_S1024x4096_S4x2048x4096_2_0_01_1_n_n_wf : DotDims.WF S4x2048x1024 S1024x4096 S4x2048x4096 [2] [0] [0, 1] [1] [] []

variable [Facts₀]

def dot_S4x2048x1024_S1024x4096_S4x2048x4096_2_0_01_1_n_n : DotDims S4x2048x1024 S1024x4096 S4x2048x4096 where
  lhsContracting := [2]
  rhsContracting := [0]
  lhsNonContracting := [0, 1]
  rhsNonContracting := [1]
  lhsBatch := []
  rhsBatch := []
  wf := dot_S4x2048x1024_S1024x4096_S4x2048x4096_2_0_01_1_n_n_wf

class Facts : Prop extends Facts₀ where

variable [Facts]
-- ==== Proof.FakeQuant.lean ====
/-
  SYMMETRIC EIGHT-BIT FAKE QUANTISATION OVER THE EXTENDED REALS.
  A vector v is quantised against its own scale s = max (max_k |v k| / 127) ε: the entry x becomes
  round (clip (x / s) (−127) 127) · s, the rounding to nearest with ties to even. The straight-through spelling adds to
  x / s the difference between that rounded level and x / s before the product with s; the difference cancels as soon
  as x / s is a real number, and it is one whenever x is real, because the scale of a vector of reals is a positive
  real: the largest magnitude is below +∞, its 127th part too, and ε is a positive real.
-/
import Idealize.ShloMosaic.PureOps.Ideal.Laws

open scoped BigOperators

noncomputable section

namespace Cert.FakeQuant

open Idealize.ShloMosaic

/-! ## The three constants -/

/-- The word of `127.0` denotes the real 127. -/
theorem ofBits_127 : Ideal.ofBits .f32 0x42FE0000#32 = ((127 : ℝ) : EReal) := by
  simp [Ideal.ofBits, Ideal.ieee, -EReal.coe_mul]; norm_num

/-- The word of ε (`1e-8` rounded to f32) denotes a positive real. -/
theorem ofBits_eps_pos : ∃ e : ℝ, 0 < e ∧ Ideal.ofBits .f32 0x322BCC77#32 = (e : EReal) := by
  refine ⟨11258999 * (2 : ℝ) ^ (-50 : ℤ), by positivity, ?_⟩
  simp [Ideal.ofBits, Ideal.ieee, -EReal.coe_mul]

/-- The word the maxima are folded from denotes −∞. -/
theorem ofBits_neg_inf : Ideal.ofBits .f32 0xFF800000#32 = ⊥ := by
  simp [Ideal.ofBits, Ideal.ieee]

/-! ## The scalar functions -/

/-- The largest magnitude among the entries of `v`, folded from −∞. -/
def amax {n : ℕ} (v : Fin n → EReal) : EReal :=
  (Finset.univ : Finset (Fin n)).fold max (Ideal.ofBits .f32 0xFF800000#32) (fun k => max (v k) (-(v k)))

/-- The scale that goes with a largest magnitude `a`: its 127th part, but at least ε. -/
def scale (a : EReal) : EReal :=
  max (Ideal.div a (Ideal.ofBits .f32 0x42FE0000#32)) (Ideal.ofBits .f32 0x322BCC77#32)

/-- The integer level of `x` at scale `s`: `x / s` clipped to [−127, 127] and rounded, ties to even. -/
def level (x s : EReal) : EReal :=
  Ideal.liftRound Ideal.roundHalfEven
    (min (Ideal.ofBits .f32 0x42FE0000#32) (max (Ideal.ofBits .f32 0xC2FE0000#32) (Ideal.div x s)))

/-- `x` quantised at scale `s`. -/
def fq (x s : EReal) : EReal := level x s * s

/-- The same through the straight-through spelling `x / s + (level − x / s)`. -/
def fqSte (x s : EReal) : EReal := (Ideal.div x s + (level x s - Ideal.div x s)) * s

/-- Entry `d` of the vector `v` quantised against `v`'s own scale. -/
def vecQ {n : ℕ} (v : Fin n → EReal) (d : Fin n) : EReal := fq (v d) (scale (amax v))

/-- The same through the straight-through spelling. -/
def vecQSte {n : ℕ} (v : Fin n → EReal) (d : Fin n) : EReal := fqSte (v d) (scale (amax v))

/-! ## On real entries the two spellings agree -/

/-- The largest magnitude of finitely many reals is below +∞. -/
theorem amax_lt_top {n : ℕ} (v : Fin n → EReal) (hv : ∀ k, ∃ r : ℝ, v k = r) : amax v < ⊤ := by
  unfold amax
  rw [Finset.fold_max_lt]
  refine ⟨by rw [ofBits_neg_inf]; exact bot_lt_top, fun k _ => ?_⟩
  obtain ⟨r, hr⟩ := hv k
  rw [hr, ← EReal.coe_neg]
  exact max_lt (EReal.coe_lt_top _) (EReal.coe_lt_top _)

/-- The scale of a largest magnitude below +∞ is a positive real. -/
theorem scale_real_pos (a : EReal) (ha : a < ⊤) : ∃ w : ℝ, 0 < w ∧ scale a = (w : EReal) := by
  obtain ⟨e, he, hE⟩ := ofBits_eps_pos
  have h1 : Ideal.div a (Ideal.ofBits .f32 0x42FE0000#32) < ⊤ := by
    rw [ofBits_127, Ideal.div_coe (by norm_num : (127 : ℝ) ≠ 0)]
    induction a using EReal.rec with
    | bot => rw [EReal.bot_mul_coe_of_pos (by norm_num)]; exact bot_lt_top
    | coe r => rw [← EReal.coe_mul]; exact EReal.coe_lt_top _
    | top => exact absurd ha (lt_irrefl _)
  have hlt : scale a < ⊤ := by unfold scale; rw [hE]; exact max_lt h1 (EReal.coe_lt_top _)
  have hge : (e : EReal) ≤ scale a := by unfold scale; rw [hE]; exact le_max_right _ _
  have hbot : scale a ≠ ⊥ := ne_bot_of_gt (lt_of_lt_of_le (EReal.bot_lt_coe e) hge)
  have hc : ((scale a).toReal : EReal) = scale a := EReal.coe_toReal hlt.ne hbot
  refine ⟨(scale a).toReal, ?_, hc.symm⟩
  rw [← hc] at hge
  exact lt_of_lt_of_le he (EReal.coe_le_coe_iff.1 hge)

/-- A real over a positive real is a real. -/
theorem div_real {x s : EReal} (hx : ∃ u : ℝ, x = u) (hs : ∃ w : ℝ, 0 < w ∧ s = (w : EReal)) :
    ∃ q : ℝ, Ideal.div x s = (q : EReal) := by
  obtain ⟨u, rfl⟩ := hx
  obtain ⟨w, hw, rfl⟩ := hs
  exact ⟨u * (1 / w), by rw [Ideal.div_coe hw.ne', EReal.coe_mul]⟩

/-- Where the quotient is a real number the straight-through difference cancels. -/
theorem fqSte_eq_fq {x s : EReal} (h : ∃ q : ℝ, Ideal.div x s = (q : EReal)) : fqSte x s = fq x s := by
  obtain ⟨q, hq⟩ := h
  unfold fqSte fq
  rw [hq, add_comm, EReal.sub_add_cancel]

/-- A vector of reals quantises to the same entries in either spelling. -/
theorem vecQSte_eq_vecQ {n : ℕ} (v : Fin n → EReal) (hv : ∀ k, ∃ r : ℝ, v k = r) (d : Fin n) :
    vecQSte v d = vecQ v d :=
  fqSte_eq_fq (div_real (hv d) (scale_real_pos _ (amax_lt_top v hv)))

end Cert.FakeQuant

end
-- ==== Proof.LibColumn.lean ====
/-
  Rank-2 arrays whose last axis is reduced with `keepdims`: the least and the greatest entry of each row, kept as a
  one-wide column and spread back over the row.
  * a `multi_reduction <minimumf>` over one axis, at the ideal values, as the fold of `min` over that axis's
    coordinates (the library has the `<maximumf>` form);
  * the index a reduction over the LAST axis of an [a, b] array inserts: `(r, k)` over `r`;
  * the keepdims column forms read at an index: [a] → [a, 1] by a shape cast, [a, 1] → [a, b] by a broadcast.
-/
import Idealize.ShloMosaic.Lib.Pipeline.Value
import Idealize.ShloMosaic.Lib.ValueIdx
import Idealize.ShloMosaic.PureOps.Ideal.Laws

noncomputable section

namespace Cert.LibColumn

open Idealize.ShloMosaic Idealize.ShloMosaic.ValueIdx

variable {α : Type}

/-- A float `vector.multi_reduction <minimumf>` over one axis, read at the ideal values: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Reducing the last axis of an [a, b] array: over row `r`, coordinate `k` is inserted as `(r, k)`. -/
theorem lift_last_ix2 {a b : ℕ} (h : (⟨2, ![a, b]⟩ : Shape).Reduces [(1 : Fin 2)] ⟨1, ![a]⟩) (r : Fin a) (k : Fin b) :
    h.lift (ix1 r) k = ix2 r k := by
  funext c
  apply Fin.ext
  refine (h.lift_val (ix1 r) k c).trans ?_
  match c with
  | ⟨0, _⟩ => rfl
  | ⟨1, _⟩ => rfl

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibRowFold.lean ====
/-
  The index a one-axis reduction inserts, by coordinates. Reducing the FIRST axis of an [a, b] array: over column `q`,
  coordinate `k` is inserted as `(k, q)`. Reducing the LAST axis of an [a, b, c] array: over `(p, q)`, coordinate `k`
  is inserted as `(p, q, k)`.
-/
import Idealize.ShloMosaic.Lib.ValueIdx
import Idealize.ShloMosaic.PureOps.Ideal.Laws

noncomputable section

namespace Cert.LibRowFold

open Idealize.ShloMosaic Idealize.ShloMosaic.ValueIdx

/-- Reducing the first axis of an [a, b] array: over column `q`, coordinate `k` is inserted as `(k, q)`. -/
theorem lift_first_ix2 {a b : ℕ} (h : (⟨2, ![a, b]⟩ : Shape).Reduces [(0 : Fin 2)] ⟨1, ![b]⟩) (q : Fin b) (k : Fin a) :
    h.lift (ix1 q) k = ix2 k q := by
  funext c
  apply Fin.ext
  refine (h.lift_val (ix1 q) k c).trans ?_
  match c with
  | ⟨0, _⟩ => rfl
  | ⟨1, _⟩ => rfl

/-- Reducing the last axis of an [a, b, c] array: over `(p, q)`, coordinate `k` is inserted as `(p, q, k)`. -/
theorem lift_last_ix3 {a b c : ℕ} (h : (⟨3, ![a, b, c]⟩ : Shape).Reduces [(2 : Fin 3)] ⟨2, ![a, b]⟩) (p : Fin a) (q : Fin b) (k : Fin c) :
    h.lift (ix2 p q) k = ix3 p q k := by
  funext d
  apply Fin.ext
  refine (h.lift_val (ix2 p q) k d).trans ?_
  match d with
  | ⟨0, _⟩ => rfl
  | ⟨1, _⟩ => rfl
  | ⟨2, _⟩ => rfl

end Cert.LibRowFold

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.Payloads.lean ====
/-
  WHAT THE TWO KERNEL BODIES STORE, ENTRY BY ENTRY.
  The first body quantises the columns of its [1024, 1024] block: entry (p, q) of what it stores is entry p of column q
  quantised against that column's scale. The second quantises the rows of its [512, 1024] block and multiplies by its
  [1024, 1024] block of the first body's result: entry (p, q) of what it stores is the sum over c of entry c of row p,
  quantised against the row's scale, times entry (c, q) of the other block.
-/
import proofs.«150394_j76304388981477_1_alg».proof.Proof.Gen.KernelIdeal.Skeleton
import proofs.«150394_j76304388981477_1_alg».proof.Proof.FakeQuant
import proofs.«150394_j76304388981477_1_alg».proof.Proof.LibColumn
import proofs.«150394_j76304388981477_1_alg».proof.Proof.LibRowFold
import proofs.«150394_j76304388981477_1_alg».proof.Proof.LibPlainMatmul
import Idealize.ShloMosaic.Lib.ValueLayout
import Idealize.ShloMosaic.Lib.Pipeline.Value

open scoped BigOperators

noncomputable section

namespace Cert.KernelIdeal.Payloads

open Cert.KernelIdeal Cert.KernelIdeal.Gen Cert.FakeQuant
open Idealize.ShloMosaic Idealize.ShloMosaic.ValueIdx

/-! ## The pointwise part, at any shape -/

/-- The scale vector at an index: the 127th part of the largest magnitude there, but at least ε. -/
theorem scale_apply {S : Shape} (A : FVec Ideal S .f32) (i : S.Idx) :
    maximumf (divf A (broadcast S (Scalar.ofBits (F := Ideal) .f32 0x42FE0000#32))) (broadcast S (Scalar.ofBits (F := Ideal) .f32 0x322BCC77#32)) i
      = scale (A i) := rfl

/-- The quantised vector at an index: the clipped, rounded quotient by the scale there, times that scale. -/
theorem fq_apply {S : Shape} (X B : FVec Ideal S .f32) (h : FTy.bits .bf16 < FTy.bits .f32) (i : S.Idx) :
    (truncf .bf16 (mulf (roundeven (minimumf (broadcast S (Scalar.ofBits (F := Ideal) .f32 0x42FE0000#32))
        (maximumf (broadcast S (Scalar.ofBits (F := Ideal) .f32 0xC2FE0000#32)) (divf X B)))) B) h : FVec Ideal S .bf16) i
      = fq (X i) (B i) := rfl

/-! ## The first body: the columns of a [1024, 1024] block -/

/-- The largest magnitude of column `q`. -/
theorem colmax_apply (X : FVec Ideal S1024x1024 .f32) (q : Fin 1024) :
    multiReduction .maximumf [0] S1024 (absf X) 0xFF800000#32 reduces_S1024x1024_S1024 (.inl rfl) rfl (ix1 q)
      = amax (fun d : Fin 1024 => X (ix2 d q)) := by
  refine (Ideal.multiReduction_maximumf_single (absf X) 0xFF800000#32 reduces_S1024x1024_S1024 (.inl rfl) rfl (ix1 q)).trans ?_
  unfold amax
  refine congrArg (Finset.fold max _ · Finset.univ) (funext fun k => ?_)
  exact (congrArg (absf X) (Cert.LibRowFold.lift_first_ix2 reduces_S1024x1024_S1024 q k)).trans rfl

/-- Entry (p, q) of what the first body stores. -/
theorem pay_quantize (X : FVec Ideal S1024x1024 .f32) (p q : Fin 1024) :
    k0_pay1 (F := Ideal) X (ix2 p q) = vecQ (fun d : Fin 1024 => X (ix2 d q)) p := by
  unfold k0_pay1
  refine (fq_apply X _ bitsLt_bf16_f32 (ix2 p q)).trans ?_
  unfold vecQ
  refine congrArg (fq (X (ix2 p q))) ?_
  refine (broadcastTo_1b_ab_apply _ broadcasts_S1x1024_S1024x1024 p q).trans ?_
  refine (scale_apply _ (ix2 (0 : Fin 1) q)).trans ?_
  refine congrArg scale ?_
  refine (shapeCast_a_1a_apply _ shapeCasts_S1024_S1x1024 (0 : Fin 1) q).trans ?_
  exact colmax_apply X q

/-! ## The second body: the rows of a [512, 1024] block, times a [1024, 1024] block -/

/-- The largest magnitude of row `p`. -/
theorem rowmax_apply (X : FVec Ideal S512x1024 .f32) (p : Fin 512) :
    multiReduction .maximumf [1] S512 (absf X) 0xFF800000#32 reduces_S512x1024_S512 (.inl rfl) rfl (ix1 p)
      = amax (fun d : Fin 1024 => X (ix2 p d)) := by
  refine (Ideal.multiReduction_maximumf_single (absf X) 0xFF800000#32 reduces_S512x1024_S512 (.inl rfl) rfl (ix1 p)).trans ?_
  unfold amax
  refine congrArg (Finset.fold max _ · Finset.univ) (funext fun k => ?_)
  exact (congrArg (absf X) (Cert.LibColumn.lift_last_ix2 reduces_S512x1024_S512 p k)).trans rfl

/-- The rows of a block quantised, as the second body computes them before its product. -/
def rowsQ (X : FVec Ideal S512x1024 .f32) : FVec Ideal S512x1024 .bf16 :=
  truncf .bf16 (mulf (roundeven (minimumf (broadcast S512x1024 (Scalar.ofBits (F := Ideal) .f32 0x42FE0000#32))
    (maximumf (broadcast S512x1024 (Scalar.ofBits (F := Ideal) .f32 0xC2FE0000#32))
      (divf X (broadcastTo S512x1024 (maximumf (divf (shapeCast S512x1 (multiReduction .maximumf [1] S512 (absf X) 0xFF800000#32 reduces_S512x1024_S512 (.inl rfl) rfl) shapeCasts_S512_S512x1)
        (broadcast S512x1 (Scalar.ofBits (F := Ideal) .f32 0x42FE0000#32))) (broadcast S512x1 (Scalar.ofBits (F := Ideal) .f32 0x322BCC77#32))) broadcasts_S512x1_S512x1024)))))
    (broadcastTo S512x1024 (maximumf (divf (shapeCast S512x1 (multiReduction .maximumf [1] S512 (absf X) 0xFF800000#32 reduces_S512x1024_S512 (.inl rfl) rfl) shapeCasts_S512_S512x1)
        (broadcast S512x1 (Scalar.ofBits (F := Ideal) .f32 0x42FE0000#32))) (broadcast S512x1 (Scalar.ofBits (F := Ideal) .f32 0x322BCC77#32))) broadcasts_S512x1_S512x1024)) bitsLt_bf16_f32

/-- Entry (p, c) of the quantised rows: entry c of row p against the row's scale. -/
theorem rowsQ_apply (X : FVec Ideal S512x1024 .f32) (p : Fin 512) (c : Fin 1024) :
    rowsQ X (ix2 p c) = vecQ (fun d : Fin 1024 => X (ix2 p d)) c := by
  unfold rowsQ
  refine (fq_apply X _ bitsLt_bf16_f32 (ix2 p c)).trans ?_
  unfold vecQ
  refine congrArg (fq (X (ix2 p c))) ?_
  refine (Cert.LibColumn.broadcastTo_a1_ab_apply _ broadcasts_S512x1_S512x1024 p c).trans ?_
  refine (scale_apply _ (ix2 p (0 : Fin 1))).trans ?_
  refine congrArg scale ?_
  refine (Cert.LibColumn.shapeCast_a_a1_apply _ shapeCasts_S512_S512x1 p (0 : Fin 1)).trans ?_
  exact rowmax_apply X p

/-- The second body's stored value is the product of the quantised rows with the other block. -/
theorem pay_qmm_eq (X0 : FVec Ideal S512x1024 .f32) (X1 : FVec Ideal S1024x1024 .bf16) :
    k1_pay1 (F := Ideal) X0 X1
      = matmul dot_S512x1024_S1024x1024_S512x1024_1_0_0_1_n_n none (rowsQ (shapeCast S512x1024 X0 shapeCasts_S512x1024_S512x1024))
          (shapeCast S1024x1024 X1 shapeCasts_S1024x1024_S1024x1024) (constant S512x1024 .f32 0x00000000#32) := rfl

/-- Entry (p, q) of what the second body stores. -/
theorem pay_qmm (X0 : FVec Ideal S512x1024 .f32) (X1 : FVec Ideal S1024x1024 .bf16) (p : Fin 512) (q : Fin 1024) :
    k1_pay1 (F := Ideal) X0 X1 (ix2 p q) = ∑ c : Fin 1024, vecQ (fun d : Fin 1024 => X0 (ix2 p d)) c * X1 (ix2 c q) := by
  rw [pay_qmm_eq, shapeCast_self, shapeCast_self]
  refine (Idealize.ShloMosaic.PlainMatmul.matmul_zero_apply _ dot_S512x1024_S1024x1024_S512x1024_1_0_0_1_n_n_wf rfl none _ _ p q).trans ?_
  refine Finset.sum_congr rfl fun c _ => ?_
  rw [rowsQ_apply]

end Cert.KernelIdeal.Payloads

end
-- ==== Proof.Region0Value.lean ====
/-
  THE ARRAY THE FIRST PALLAS CALL LEAVES. Its grid has four points; point t reads columns 1024·t … 1024·t + 1023 of the
  [1024, 4096] matrix (all 1024 rows, so each column whole) and writes the same columns of the result. What it writes is
  the block of ONE whole-array function: each column of the matrix quantised against its own scale. The four blocks tile
  the result, so the result array ends as that function of the matrix as the call finds it.
-/
import proofs.«150394_j76304388981477_1_alg».proof.Proof.Gen.KernelIdeal.Frame
import proofs.«150394_j76304388981477_1_alg».proof.Proof.Payloads

set_option maxRecDepth 16384

open scoped BigOperators

noncomputable section

namespace Cert.KernelIdeal.Region0

open Cert.KernelIdeal Cert.KernelIdeal.Gen Cert.KernelIdeal.Payloads Cert.FakeQuant
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- Every column of a [1024, 4096] matrix quantised against its own scale. -/
def colsQ (A : S1024x4096.Idx → EReal) : S1024x4096.Idx → EReal :=
  fun i => vecQ (fun d : Fin 1024 => A (ix2 d (i 1))) (i 0)

theorem colsQ_apply (A : S1024x4096.Idx → EReal) (p : Fin 1024) (q : Fin 4096) :
    colsQ A (ix2 p q) = vecQ (fun d : Fin 1024 => A (ix2 d q)) p := rfl

theorem hz : (![0, 0] : Fin 2 → Nat) = fun _ => 0 := funext fun a => by fin_cases a <;> rfl

/-- The two index maps, decided over the four points: both windows sit at block row 0 and at the same block column,
    which is at most 3. -/
theorem idx_facts : ∀ t : Fin cfg0.N, win0_0.index t (0 : Fin 2) = 0
    ∧ win0_0.index t (1 : Fin 2) = win0_1.index t (1 : Fin 2)
    ∧ win0_1.index t (0 : Fin 2) = 0
    ∧ win0_1.index t (1 : Fin 2) ≤ 3 :=
  (by decide +kernel : ∀ t : Fin grid0.N, _)

/-- Every block column is some point's. -/
theorem idx_onto : ∀ q1 : Fin 4, ∃ t : Fin cfg0.N, win0_1.index t = ![0, q1.val] :=
  (by decide +kernel : ∀ q1 : Fin 4, ∃ t : Fin grid0.N, win0_1.index t = ![0, q1.val])

/-- Column `q` of point `t`'s block is this column of the matrix. -/
def col (t : Fin cfg0.N) (q : Fin 1024) : Fin 4096 :=
  ⟨win0_1.index t (1 : Fin 2) * 1024 + q.val, by have := (idx_facts t).2.2.2; have := q.isLt; omega⟩

/-- Where entry (d, q) of the input block lies in the matrix. -/
theorem emb_in (t : Fin cfg0.N) (d q : Fin 1024) :
    ((cfg0.win 0).blk t).view.emb (ix2 d q) = ix2 d (col t q) := by
  obtain ⟨e0, e1, e2, e3⟩ := idx_facts t
  funext a; apply Fin.ext
  match a with
  | ⟨0, _⟩ => show win0_0.index t (0 : Fin 2) * 1024 + 1 * d.val = d.val; omega
  | ⟨1, _⟩ => show win0_0.index t (1 : Fin 2) * 1024 + 1 * q.val = win0_1.index t (1 : Fin 2) * 1024 + q.val; omega

/-- Where entry (p, q) of the output block lies in the result. -/
theorem emb_out (t : Fin cfg0.N) (p q : Fin 1024) :
    ((cfg0.win 1).blk t).view.emb (ix2 p q) = ix2 p (col t q) := by
  obtain ⟨e0, e1, e2, e3⟩ := idx_facts t
  funext a; apply Fin.ext
  match a with
  | ⟨0, _⟩ => show win0_1.index t (0 : Fin 2) * 1024 + 1 * p.val = p.val; omega
  | ⟨1, _⟩ => show win0_1.index t (1 : Fin 2) * 1024 + 1 * q.val = win0_1.index t (1 : Fin 2) * 1024 + q.val; omega

/-- The input block at an entry is the matrix there. -/
theorem iblk_apply (c : Dev nD) (t : Fin cfg0.N) (d q : Fin 1024) :
    iblk0 V c 0 t (ix2 d q) = V c main_arg1 (ix2 d (col t q)) := by
  show V c main_arg1 (((cfg0.win 0).blk t).view.emb (ix2 d q)) = _
  rw [emb_in]

/-- WHAT POINT `t` WRITES BACK is block `t` of the column-quantised matrix. -/
theorem flushed_eq (c : Dev nD) (t : Fin cfg0.N) :
    (dat0 V c).flushed 1 t = ((cfg0.win 1).blk t).view.read (Elt Ideal) (colsQ (V c main_arg1)) := by
  show (cfg0.win 1).cut (grid0.coords t) ((dat0 V c).after 1 t) = _
  rw [after0_1]
  unfold out0_1
  rw [View.canon_unit_zero hz]
  simp only [View.ld_unit_zero (S := S1024x1024) hz]
  funext j
  obtain ⟨p, q, rfl⟩ : ∃ (p q : Fin 1024), j = ix2 p q := ⟨j 0, j 1, eq_ix2 j⟩
  show k0_pay1 (F := Ideal) (iblk0 V c 0 t) (ix2 p q) = colsQ (V c main_arg1) (((cfg0.win 1).blk t).view.emb (ix2 p q))
  rw [emb_out, colsQ_apply]
  refine (pay_quantize _ p q).trans ?_
  refine congrArg (fun v => vecQ v p) (funext fun d => ?_)
  exact iblk_apply V c t d q

/-- An index of the result is in point `t`'s block iff each coordinate is in the block's range on its axis. -/
theorem mem_blk (t : Fin cfg0.N) (i : S1024x4096.Idx) :
    i ∈ ((cfg0.win 1).blk t).view.set ↔ ∀ a : Fin 2, win0_1.index t a * S1024x1024.size a ≤ (i a).val ∧ (i a).val < win0_1.index t a * S1024x1024.size a + S1024x1024.size a := by
  show i ∈ ((View.whole main_v1).slice (win0_1.rect t)).set ↔ _
  rw [View.set_slice_whole, Rect.mem_set_unit]
  exact Iff.rfl

/-- The four blocks cover the result: column `h` is in the block of point `h / 1024`. -/
theorem cover (i : S1024x4096.Idx) : ∃ t : Fin cfg0.N, (cfg0.win 1).flush t = true ∧ i ∈ ((cfg0.win 1).blk t).view.set := by
  have hi0 : (i 0).val < 1024 := (i 0).isLt
  have hi1 : (i 1).val < 4096 := (i 1).isLt
  obtain ⟨t, ht⟩ := idx_onto ⟨(i 1).val / 1024, by omega⟩
  have q0 : win0_1.index t (0 : Fin 2) = 0 := congrFun ht 0
  have q1 : win0_1.index t (1 : Fin 2) = (i 1).val / 1024 := congrFun ht 1
  refine ⟨t, flush0_1 t, ?_⟩
  rw [mem_blk]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 1024 ≤ (i 1).val ∧ (i 1).val < win0_1.index t (1 : Fin 2) * 1024 + 1024; omega

/-- THE RESULT ARRAY after the call: the matrix as the call finds it, each column quantised. -/
theorem final (c : Dev nD) : (dat0 V c).arrAt 1 cfg0.N = colsQ (V c main_arg1) :=
  (dat0 V c).arrAt_eq_of_cover 1 (colsQ (V c main_arg1)) (fun t _ => flushed_eq V c t) cover

end Cert.KernelIdeal.Region0

end
-- ==== Proof.Region1Value.lean ====
/-
  THE ARRAY THE SECOND PALLAS CALL LEAVES. Its grid is 16 × 4; point (I, J) reads rows 512·I … 512·I + 511 of the
  [8192, 1024] activations (each row whole), columns 1024·J … 1024·J + 1023 of the [1024, 4096] quantised matrix (every
  row), and writes rows 512·I …, columns 1024·J … of the [8192, 4096] result. What it writes is the block of ONE
  whole-array function: entry (r, h) is the sum over d of entry d of row r of the activations, quantised against the
  row's scale, times entry (d, h) of the matrix. The 64 blocks tile the result.
-/
import proofs.«150394_j76304388981477_1_alg».proof.Proof.Gen.KernelIdeal.Frame
import proofs.«150394_j76304388981477_1_alg».proof.Proof.Payloads

set_option maxRecDepth 16384

open scoped BigOperators

noncomputable section

namespace Cert.KernelIdeal.Region1

open Cert.KernelIdeal Cert.KernelIdeal.Gen Cert.KernelIdeal.Payloads Cert.FakeQuant
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The rows of the activations quantised, times a matrix. -/
def rowsQMul (X : S8192x1024.Idx → EReal) (K : S1024x4096.Idx → EReal) : S8192x4096.Idx → EReal :=
  fun i => ∑ d : Fin 1024, vecQ (fun d' : Fin 1024 => X (ix2 (i 0) d')) d * K (ix2 d (i 1))

theorem rowsQMul_apply (X : S8192x1024.Idx → EReal) (K : S1024x4096.Idx → EReal) (r : Fin 8192) (h : Fin 4096) :
    rowsQMul X K (ix2 r h) = ∑ d : Fin 1024, vecQ (fun d' : Fin 1024 => X (ix2 r d')) d * K (ix2 d h) := rfl

theorem hz : (![0, 0] : Fin 2 → Nat) = fun _ => 0 := funext fun a => by fin_cases a <;> rfl

/-- The three index maps, decided over the 64 points: the activations' block row is the result's, the matrix's block
    column is the result's, the other two block indices are 0, and the result's stay in range. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = win1_2.index t (1 : Fin 2)
    ∧ win1_2.index t (0 : Fin 2) ≤ 15
    ∧ win1_2.index t (1 : Fin 2) ≤ 3 :=
  (by decide +kernel : ∀ t : Fin grid1.N, _)

/-- Every block of the result is some point's. -/
theorem idx_onto : ∀ (q0 : Fin 16) (q1 : Fin 4), ∃ t : Fin cfg1.N, win1_2.index t = ![q0.val, q1.val] :=
  (by decide +kernel : ∀ (q0 : Fin 16) (q1 : Fin 4), ∃ t : Fin grid1.N, win1_2.index t = ![q0.val, q1.val])

/-- Row `p` of point `t`'s blocks is this row of the arrays. -/
def row (t : Fin cfg1.N) (p : Fin 512) : Fin 8192 :=
  ⟨win1_2.index t (0 : Fin 2) * 512 + p.val, by have := (idx_facts t).2.2.2.2.1; have := p.isLt; omega⟩

/-- Column `q` of point `t`'s blocks is this column of the arrays. -/
def col (t : Fin cfg1.N) (q : Fin 1024) : Fin 4096 :=
  ⟨win1_2.index t (1 : Fin 2) * 1024 + q.val, by have := (idx_facts t).2.2.2.2.2; have := q.isLt; omega⟩

/-- Where entry (p, d) of the activations' block lies. -/
theorem emb_x (t : Fin cfg1.N) (p : Fin 512) (d : Fin 1024) :
    ((cfg1.win 0).blk t).view.emb (ix2 p d) = ix2 (row t p) d := by
  obtain ⟨e0, e1, e2, e3, e4, e5⟩ := idx_facts t
  funext a; apply Fin.ext
  match a with
  | ⟨0, _⟩ => show win1_0.index t (0 : Fin 2) * 512 + 1 * p.val = win1_2.index t (0 : Fin 2) * 512 + p.val; omega
  | ⟨1, _⟩ => show win1_0.index t (1 : Fin 2) * 1024 + 1 * d.val = d.val; omega

/-- Where entry (d, q) of the matrix's block lies. -/
theorem emb_k (t : Fin cfg1.N) (d q : Fin 1024) :
    ((cfg1.win 1).blk t).view.emb (ix2 d q) = ix2 d (col t q) := by
  obtain ⟨e0, e1, e2, e3, e4, e5⟩ := idx_facts t
  funext a; apply Fin.ext
  match a with
  | ⟨0, _⟩ => show win1_1.index t (0 : Fin 2) * 1024 + 1 * d.val = d.val; omega
  | ⟨1, _⟩ => show win1_1.index t (1 : Fin 2) * 1024 + 1 * q.val = win1_2.index t (1 : Fin 2) * 1024 + q.val; omega

/-- Where entry (p, q) of the result's block lies. -/
theorem emb_out (t : Fin cfg1.N) (p : Fin 512) (q : Fin 1024) :
    ((cfg1.win 2).blk t).view.emb (ix2 p q) = ix2 (row t p) (col t q) := by
  funext a; apply Fin.ext
  match a with
  | ⟨0, _⟩ => show win1_2.index t (0 : Fin 2) * 512 + 1 * p.val = win1_2.index t (0 : Fin 2) * 512 + p.val; omega
  | ⟨1, _⟩ => show win1_2.index t (1 : Fin 2) * 1024 + 1 * q.val = win1_2.index t (1 : Fin 2) * 1024 + q.val; omega

/-- The activations' block at an entry is the array there. -/
theorem iblk_x_apply (c : Dev nD) (t : Fin cfg1.N) (p : Fin 512) (d : Fin 1024) :
    iblk1 V c 0 t (ix2 p d) = V c main_v0 (ix2 (row t p) d) := by
  show V c main_v0 (((cfg1.win 0).blk t).view.emb (ix2 p d)) = _
  rw [emb_x]

/-- The matrix's block at an entry is the array there. -/
theorem iblk_k_apply (c : Dev nD) (t : Fin cfg1.N) (d q : Fin 1024) :
    iblk1 V c 1 t (ix2 d q) = V c main_v1 (ix2 d (col t q)) := by
  show V c main_v1 (((cfg1.win 1).blk t).view.emb (ix2 d q)) = _
  rw [emb_k]

/-- WHAT POINT `t` WRITES BACK is block `t` of the row-quantised activations times the matrix. -/
theorem flushed_eq (c : Dev nD) (t : Fin cfg1.N) :
    (dat1 V c).flushed 2 t = ((cfg1.win 2).blk t).view.read (Elt Ideal) (rowsQMul (V c main_v0) (V c main_v1)) := by
  show (cfg1.win 2).cut (grid1.coords t) ((dat1 V c).after 2 t) = _
  rw [after1_2]
  unfold out1_2
  rw [View.canon_unit_zero hz]
  simp only [View.ld_unit_zero (S := S512x1024) hz, View.ld_unit_zero (S := S1024x1024) hz]
  funext j
  obtain ⟨p, q, rfl⟩ : ∃ (p : Fin 512) (q : Fin 1024), j = ix2 p q := ⟨j 0, j 1, eq_ix2 j⟩
  show k1_pay1 (F := Ideal) (iblk1 V c 0 t) (iblk1 V c 1 t) (ix2 p q)
    = rowsQMul (V c main_v0) (V c main_v1) (((cfg1.win 2).blk t).view.emb (ix2 p q))
  rw [emb_out, rowsQMul_apply]
  refine (pay_qmm _ _ p q).trans ?_
  refine Finset.sum_congr rfl fun d _ => ?_
  rw [iblk_k_apply]
  refine congrArg (fun v => vecQ v d * V c main_v1 (ix2 d (col t q))) (funext fun d' => ?_)
  exact iblk_x_apply V c t p d'

/-- An index of the result is in point `t`'s block iff each coordinate is in the block's range on its axis. -/
theorem mem_blk (t : Fin cfg1.N) (i : S8192x4096.Idx) :
    i ∈ ((cfg1.win 2).blk t).view.set ↔ ∀ a : Fin 2, win1_2.index t a * S512x1024.size a ≤ (i a).val ∧ (i a).val < win1_2.index t a * S512x1024.size a + S512x1024.size a := by
  show i ∈ ((View.whole main_v2).slice (win1_2.rect t)).set ↔ _
  rw [View.set_slice_whole, Rect.mem_set_unit]
  exact Iff.rfl

/-- The 64 blocks cover the result: entry (r, h) is in the block of point (r / 512, h / 1024). -/
theorem cover (i : S8192x4096.Idx) : ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht⟩ := idx_onto ⟨(i 0).val / 512, by omega⟩ ⟨(i 1).val / 1024, by omega⟩
  have q0 : win1_2.index t (0 : Fin 2) = (i 0).val / 512 := congrFun ht 0
  have q1 : win1_2.index t (1 : Fin 2) = (i 1).val / 1024 := congrFun ht 1
  refine ⟨t, flush1_2 t, ?_⟩
  rw [mem_blk]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 1024 ≤ (i 1).val ∧ (i 1).val < win1_2.index t (1 : Fin 2) * 1024 + 1024; omega

/-- THE RESULT ARRAY after the call, from the two input arrays as the call finds them. -/
theorem final (c : Dev nD) : (dat1 V c).arrAt 2 cfg1.N = rowsQMul (V c main_v0) (V c main_v1) :=
  (dat1 V c).arrAt_eq_of_cover 2 (rowsQMul (V c main_v0) (V c main_v1)) (fun t _ => flushed_eq V c t) cover

end Cert.KernelIdeal.Region1

end
-- ==== Proof.Result.lean ====
/-
  THE RESULT BOTH PROGRAMS COMPUTE, as one function of the activations x : [4, 2048, 1024] and the matrix k : [1024, 4096]:
  entry (b, t, h) is the sum over d of the activation row (b, t) quantised at d times the matrix column h quantised at d.
-/
import proofs.«150394_j76304388981477_1_alg».proof.Proof.FakeQuant
import Idealize.ShloMosaic.Lib.ValueIdx

open scoped BigOperators

noncomputable section

namespace Cert.FakeQuant

open Idealize.ShloMosaic Idealize.ShloMosaic.ValueIdx

/-- The quantised contraction of the activations with the matrix. -/
def result (x : (⟨3, ![4, 2048, 1024]⟩ : Shape).Idx → EReal) (k : (⟨2, ![1024, 4096]⟩ : Shape).Idx → EReal) :
    (⟨3, ![4, 2048, 4096]⟩ : Shape).Idx → EReal :=
  fun i => ∑ d : Fin 1024, vecQ (fun d' : Fin 1024 => x (ix3 (i 0) (i 1) d')) d * vecQ (fun d' : Fin 1024 => k (ix2 d' (i 2))) d

theorem result_apply (x : (⟨3, ![4, 2048, 1024]⟩ : Shape).Idx → EReal) (k : (⟨2, ![1024, 4096]⟩ : Shape).Idx → EReal)
    (b : Fin 4) (t : Fin 2048) (h : Fin 4096) :
    result x k (ix3 b t h)
      = ∑ d : Fin 1024, vecQ (fun d' : Fin 1024 => x (ix3 b t d')) d * vecQ (fun d' : Fin 1024 => k (ix2 d' h)) d := rfl

end Cert.FakeQuant

end
-- ==== Proof.LibMergeAxes.lean ====
/-
  THE FIRST TWO AXES OF A RANK-3 ARRAY MERGED, AND SPLIT AGAIN, read at an index. An [a, b, c] array reshaped to
  [a·b, c] reads, at (p·b + q, r), the operand at (p, q, r); an [a·b, c] array reshaped to [a, b, c] reads, at (p, q, r),
  the operand at (p·b + q, r): both indices have the row-major position (p·b + q)·c + r.
-/
import Idealize.ShloMosaic.Lib.Pipeline.Value
import Idealize.ShloMosaic.Lib.ValueIdx

noncomputable section

namespace Cert.LibMergeAxes

open Idealize.ShloMosaic Idealize.ShloMosaic.ValueIdx

variable {α : Type}

/-- The merged coordinate of (p, q). -/
def merged {a b n : ℕ} (hn : n = a * b) (p : Fin a) (q : Fin b) : Fin n :=
  ⟨p.val * b + q.val, by
    have hp := p.isLt; have hq := q.isLt
    calc p.val * b + q.val < p.val * b + b := by omega
      _ = (p.val + 1) * b := by ring
      _ ≤ a * b := Nat.mul_le_mul_right b hp
      _ = n := hn.symm⟩

/-- An [a, b, c] array cast to [n, c], n = a·b, reads at (p·b + q, r) the operand at (p, q, r). -/
theorem shapeCast_merge_apply {a b c n : ℕ} (hn : n = a * b) (x : (⟨3, ![a, b, c]⟩ : Shape).Idx → α)
    (h : (⟨3, ![a, b, c]⟩ : Shape).ShapeCasts ⟨2, ![n, c]⟩) (p : Fin a) (q : Fin b) (r : Fin c) :
    shapeCast ⟨2, ![n, c]⟩ x h (ix2 (merged hn p q) r) = x (ix3 p q r) :=
  shapeCast_apply x h _ _ (by
    rw [Shape.rowMajor_val_two, Shape.rowMajor_val_three]
    rfl)

/-- An [n, c] array, n = a·b, cast to [a, b, c] reads at (p, q, r) the operand at (p·b + q, r). -/
theorem shapeCast_split_apply {a b c n : ℕ} (hn : n = a * b) (y : (⟨2, ![n, c]⟩ : Shape).Idx → α)
    (h : (⟨2, ![n, c]⟩ : Shape).ShapeCasts ⟨3, ![a, b, c]⟩) (p : Fin a) (q : Fin b) (r : Fin c) :
    shapeCast ⟨3, ![a, b, c]⟩ y h (ix3 p q r) = y (ix2 (merged hn p q) r) :=
  shapeCast_apply y h _ _ (by
    rw [Shape.rowMajor_val_two, Shape.rowMajor_val_three]
    rfl)

end Cert.LibMergeAxes

end
-- ==== Proof.KernelValue.lean ====
/-
  THE KERNEL PROGRAM'S RESULT BUFFER, read back through @main: the last host line splits the [8192, 4096] array the
  second pallas call left into [4, 2048, 4096]; that array is the row-quantised activations times the matrix the first
  call left; the activations are the argument merged to [8192, 1024] by the first host line, untouched by the first call;
  the matrix the first call left is the argument matrix with each column quantised. Entry (b, t, h) is therefore the
  quantised contraction of the two arguments.
-/
import proofs.«150394_j76304388981477_1_alg».proof.Proof.KernelRun
import proofs.«150394_j76304388981477_1_alg».proof.Proof.Region0Value
import proofs.«150394_j76304388981477_1_alg».proof.Proof.Region1Value
import proofs.«150394_j76304388981477_1_alg».proof.Proof.Result
import proofs.«150394_j76304388981477_1_alg».proof.Proof.LibMergeAxes
import Idealize.ShloMosaic.Lib.StableHlo.Run

set_option maxRecDepth 16384

open scoped BigOperators

noncomputable section

namespace Cert.KernelIdeal.KernelValue

open Cert.KernelIdeal Cert.KernelIdeal.Gen Cert.FakeQuant
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The first call finds the argument matrix as launched. -/
theorem entry_matrix (c : Dev nD) : V1 m ρ c main_arg1 = m ((c : Thread nD τ).loc main_arg1) := by
  show StableHlo.after hostOps0 (W0 m ρ c) (Proc.devRef .tc main_arg1) = _
  after_results

/-- The second call finds the activations merged to [8192, 1024]. -/
theorem entry_acts (c : Dev nD) :
    V2 m ρ c main_v0 = fun i => shapeCast S8192x1024 (m ((c : Thread nD τ).loc main_arg0)) shapeCasts_S4x2048x1024_S8192x1024 i := by
  refine (W2_of_ne m ρ c main_v0 (by decide)).trans ?_
  show StableHlo.after hostOps0 (W0 m ρ c) (Proc.devRef .tc main_v0) = _
  after_results
  rfl

/-- The second call finds the matrix the first call left: each column of the argument quantised. -/
theorem entry_qmatrix (c : Dev nD) :
    V2 m ρ c main_v1 = Region0.colsQ (m ((c : Thread nD τ).loc main_arg1)) := by
  refine (W2_arr m ρ c 1).trans ?_
  rw [Region0.final (V1 m ρ) c, entry_matrix]

/-- What the second call leaves in its result array. -/
theorem exit_result (c : Dev nD) :
    W3 m ρ c (Proc.devRef .tc main_v2) = Region1.rowsQMul (V2 m ρ c main_v0) (V2 m ρ c main_v1) :=
  (W3_arr m ρ c 2).trans (Region1.final (V2 m ρ) c)

/-- The program's result buffer is that array split to [4, 2048, 4096]. -/
theorem result_split (c : Dev nD) :
    W4 m ρ c (Proc.devRef .tc main_v3)
      = fun i => shapeCast S4x2048x4096 (W3 m ρ c (Proc.devRef .tc main_v2)) shapeCasts_S8192x4096_S4x2048x4096 i := by
  show StableHlo.after hostOps2 (W3 m ρ c) (Proc.devRef .tc main_v3) = _
  after_results
  rfl

/-- THE RESULT BUFFER after the run is the quantised contraction of the two arguments. -/
theorem result_eq (c : Dev nD) :
    W4 m ρ c (Proc.devRef .tc main_v3)
      = result (m ((c : Thread nD τ).loc main_arg0)) (m ((c : Thread nD τ).loc main_arg1)) := by
  rw [result_split]
  funext i
  obtain ⟨b, t, h, rfl⟩ : ∃ (b : Fin 4) (t : Fin 2048) (h : Fin 4096), i = ix3 b t h := ⟨i 0, i 1, i 2, eq_ix3 i⟩
  rw [result_apply]
  refine (Cert.LibMergeAxes.shapeCast_split_apply (by norm_num : 8192 = 4 * 2048) _ shapeCasts_S8192x4096_S4x2048x4096 b t h).trans ?_
  rw [exit_result, Region1.rowsQMul_apply]
  refine Finset.sum_congr (M := EReal) rfl fun d _ => ?_
  rw [entry_qmatrix, Region0.colsQ_apply, entry_acts]
  refine congrArg (fun v => vecQ v d * vecQ (fun d' : Fin 1024 => m ((c : Thread nD τ).loc main_arg1) (ix2 d' h)) d) (funext fun d' => ?_)
  exact Cert.LibMergeAxes.shapeCast_merge_apply (by norm_num : 8192 = 4 * 2048) _ shapeCasts_S4x2048x1024_S8192x1024 b t d'

/-- The run of the kernel program with its result at that function of the arguments. -/
theorem run : θ_run defs (onTc (τ := τ) (main (F := Ideal))) ⟨m, fun _ => 0, ρ⟩ (fun r => ∀ c : Dev nD,
      r.2.mem ((c.tc : Thread nD τ).loc main_v3) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (RunValue.run_main m ρ)

end Cert.KernelIdeal.KernelValue

end
-- ==== Proof.RefValue.lean ====
/-
  THE REFERENCE, ENTRY BY ENTRY. Its activations are quantised row by row (over the last axis of the [4, 2048, 1024]
  array) and its matrix column by column (over the first axis of the [1024, 4096] array), both through the
  straight-through spelling, and the result is their contraction: entry (b, t, h) is the sum over k of the quantised
  activation (b, t, k) times the quantised matrix entry (k, h).
-/
import proofs.«150394_j76304388981477_1_alg».proof.Proof.Gen.ReferenceIdeal.Read
import proofs.«150394_j76304388981477_1_alg».proof.Proof.FakeQuant
import proofs.«150394_j76304388981477_1_alg».proof.Proof.LibRowFold

open scoped BigOperators

noncomputable section

namespace Cert.ReferenceIdeal.RefValue

open Cert.ReferenceIdeal Cert.ReferenceIdeal.Gen Cert.ReferenceIdeal.Read Cert.FakeQuant
open Idealize.ShloMosaic Idealize.ShloMosaic.ValueIdx

/-- The reduction facts the two maxima are read with. -/
theorem reduces_x : S4x2048x1024.Reduces [(2 : Fin 3)] S4x2048 := by decide
theorem reduces_k : S1024x4096.Reduces [(0 : Fin 2)] S4096 := by decide

/-! ## The activations -/

/-- The largest magnitude of row (b, t). -/
theorem rowmax_apply (x0 : (⟨S4x2048x1024, .f32⟩ : BufTy).Contents (Elt Ideal)) (b : Fin 4) (t : Fin 2048) :
    val_main_v1 (F := Ideal) x0 (ix2 b t) = amax (fun d : Fin 1024 => x0 (ix3 b t d)) := by
  unfold val_main_v1
  refine (Host.reduce_eq_fold_single (FloatOps.maximumf (F := Ideal) (φ := .f32)) (val_main_v0 (F := Ideal) x0) (val_main_cst (F := Ideal))
    reducesTo_S4x2048x1024_S4x2048_d2 reduces_x h_S_ (ix2 b t)).trans ?_
  unfold amax
  refine congrArg (Finset.fold max _ · Finset.univ) (funext fun k => ?_)
  exact (congrArg (val_main_v0 (F := Ideal) x0) (Cert.LibRowFold.lift_last_ix3 reduces_x b t k)).trans rfl

/-- The scale of row (b, t), kept as a one-wide last axis. -/
theorem rowscale_apply (x0 : (⟨S4x2048x1024, .f32⟩ : BufTy).Contents (Elt Ideal)) (b : Fin 4) (t : Fin 2048) :
    val_main_v6 (F := Ideal) x0 (ix3 b t (0 : Fin 1)) = scale (amax (fun d : Fin 1024 => x0 (ix3 b t d))) := by
  have e : idx_main_v2 (ix3 b t (0 : Fin 1)) = ix2 b t :=
    funext fun a => Fin.ext (by match a with | ⟨0, _⟩ => rfl | ⟨1, _⟩ => rfl)
  rw [val_main_v6_apply, val_main_v4_apply, val_main_v2_apply, e, rowmax_apply]
  rfl

/-- Entry (b, t, d) of the quantised activations. -/
theorem act_apply (x0 : (⟨S4x2048x1024, .f32⟩ : BufTy).Contents (Elt Ideal)) (b : Fin 4) (t : Fin 2048) (d : Fin 1024) :
    val_main_v14 (F := Ideal) x0 (ix3 b t d) = vecQSte (fun d' : Fin 1024 => x0 (ix3 b t d')) d := by
  have e7 : idx_main_v7 (ix3 b t d) = ix3 b t (0 : Fin 1) :=
    funext fun a => Fin.ext (by match a with | ⟨0, _⟩ => rfl | ⟨1, _⟩ => rfl | ⟨2, _⟩ => rfl)
  have e13 : idx_main_v13 (ix3 b t d) = ix3 b t (0 : Fin 1) :=
    funext fun a => Fin.ext (by match a with | ⟨0, _⟩ => rfl | ⟨1, _⟩ => rfl | ⟨2, _⟩ => rfl)
  have h8 : val_main_v8 (F := Ideal) x0 (ix3 b t d)
      = Ideal.div (x0 (ix3 b t d)) (scale (amax (fun d' : Fin 1024 => x0 (ix3 b t d')))) := by
    rw [val_main_v8_apply, val_main_v7_apply, e7, rowscale_apply]; rfl
  rw [val_main_v14_apply, val_main_v12_apply, val_main_v11_apply, val_main_v10_apply, val_main_v9_apply,
    val_main_call0_v2_apply, h8, val_main_v13_apply, e13, rowscale_apply]
  rfl

/-! ## The matrix -/

/-- The largest magnitude of column h. -/
theorem colmax_apply (x1 : (⟨S1024x4096, .f32⟩ : BufTy).Contents (Elt Ideal)) (h : Fin 4096) :
    val_main_v16 (F := Ideal) x1 (ix1 h) = amax (fun d : Fin 1024 => x1 (ix2 d h)) := by
  unfold val_main_v16
  refine (Host.reduce_eq_fold_single (FloatOps.maximumf (F := Ideal) (φ := .f32)) (val_main_v15 (F := Ideal) x1) (val_main_cst_4 (F := Ideal))
    reducesTo_S1024x4096_S4096_d0 reduces_k h_S_ (ix1 h)).trans ?_
  unfold amax
  refine congrArg (Finset.fold max _ · Finset.univ) (funext fun k => ?_)
  exact (congrArg (val_main_v15 (F := Ideal) x1) (Cert.LibRowFold.lift_first_ix2 reduces_k h k)).trans rfl

/-- The scale of column h, kept as a one-wide first axis. -/
theorem colscale_apply (x1 : (⟨S1024x4096, .f32⟩ : BufTy).Contents (Elt Ideal)) (h : Fin 4096) :
    val_main_v21 (F := Ideal) x1 (ix2 (0 : Fin 1) h) = scale (amax (fun d : Fin 1024 => x1 (ix2 d h))) := by
  have e : idx_main_v17 (ix2 (0 : Fin 1) h) = ix1 h :=
    funext fun a => Fin.ext (by match a with | ⟨0, _⟩ => rfl)
  rw [val_main_v21_apply, val_main_v19_apply, val_main_v17_apply, e, colmax_apply]
  rfl

/-- Entry (d, h) of the quantised matrix. -/
theorem mat_apply (x1 : (⟨S1024x4096, .f32⟩ : BufTy).Contents (Elt Ideal)) (d : Fin 1024) (h : Fin 4096) :
    val_main_v29 (F := Ideal) x1 (ix2 d h) = vecQSte (fun d' : Fin 1024 => x1 (ix2 d' h)) d := by
  have e22 : idx_main_v22 (ix2 d h) = ix2 (0 : Fin 1) h :=
    funext fun a => Fin.ext (by match a with | ⟨0, _⟩ => rfl | ⟨1, _⟩ => rfl)
  have e28 : idx_main_v28 (ix2 d h) = ix2 (0 : Fin 1) h :=
    funext fun a => Fin.ext (by match a with | ⟨0, _⟩ => rfl | ⟨1, _⟩ => rfl)
  have h23 : val_main_v23 (F := Ideal) x1 (ix2 d h)
      = Ideal.div (x1 (ix2 d h)) (scale (amax (fun d' : Fin 1024 => x1 (ix2 d' h)))) := by
    rw [val_main_v23_apply, val_main_v22_apply, e22, colscale_apply]; rfl
  rw [val_main_v29_apply, val_main_v27_apply, val_main_v26_apply, val_main_v25_apply, val_main_v24_apply,
    val_main_call2_v2_apply, h23, val_main_v28_apply, e28, colscale_apply]
  rfl

/-! ## The contraction -/

/-- Entry (b, t, h) of the reference's result. -/
theorem result_apply (x0 : (⟨S4x2048x1024, .f32⟩ : BufTy).Contents (Elt Ideal)) (x1 : (⟨S1024x4096, .f32⟩ : BufTy).Contents (Elt Ideal))
    (b : Fin 4) (t : Fin 2048) (h : Fin 4096) :
    val_main_v30 (F := Ideal) x0 x1 (ix3 b t h)
      = ∑ k : Fin 1024, vecQSte (fun d' : Fin 1024 => x0 (ix3 b t d')) k * vecQSte (fun d' : Fin 1024 => x1 (ix2 d' h)) k := by
  rw [val_main_v30_apply]
  refine Finset.sum_congr rfl fun k _ => ?_
  have el : lidx_main_v30 (ix3 b t h) k = ix3 b t k :=
    funext fun a => Fin.ext (by match a with | ⟨0, _⟩ => rfl | ⟨1, _⟩ => rfl | ⟨2, _⟩ => rfl)
  have er : ridx_main_v30 (ix3 b t h) k = ix2 k h :=
    funext fun a => Fin.ext (by match a with | ⟨0, _⟩ => rfl | ⟨1, _⟩ => rfl)
  rw [el, er, act_apply, mat_apply]

end Cert.ReferenceIdeal.RefValue

end
-- ==== Proof.Bridge.lean ====
/-
  THE REFERENCE'S RESULT IS THE QUANTISED CONTRACTION when both arguments hold real numbers: entry by entry it is the same
  sum with each factor in the straight-through spelling, and on a vector of reals that spelling quantises to the same
  entries.
-/
import proofs.«150394_j76304388981477_1_alg».proof.Proof.RefValue
import proofs.«150394_j76304388981477_1_alg».proof.Proof.Result

open scoped BigOperators

noncomputable section

namespace Cert.ReferenceIdeal.RefValue

open Cert.ReferenceIdeal Cert.ReferenceIdeal.Read Cert.FakeQuant
open Idealize.ShloMosaic Idealize.ShloMosaic.ValueIdx

theorem result_eq (x0 : (⟨S4x2048x1024, .f32⟩ : BufTy).Contents (Elt Ideal)) (x1 : (⟨S1024x4096, .f32⟩ : BufTy).Contents (Elt Ideal))
    (hx : ∀ i, ∃ r : ℝ, x0 i = r) (hk : ∀ i, ∃ r : ℝ, x1 i = r) :
    val_main_v30 (F := Ideal) x0 x1 = result x0 x1 := by
  funext i
  obtain ⟨b, t, h, rfl⟩ : ∃ (b : Fin 4) (t : Fin 2048) (h : Fin 4096), i = ix3 b t h := ⟨i 0, i 1, i 2, eq_ix3 i⟩
  rw [result_apply, Cert.FakeQuant.result_apply]
  refine Finset.sum_congr (M := EReal) rfl fun d _ => ?_
  rw [vecQSte_eq_vecQ _ (fun k => hx _), vecQSte_eq_vecQ _ (fun k => hk _)]

end Cert.ReferenceIdeal.RefValue

end
-- ==== Proof.Finite.lean ====
/-
  FINITE INPUTS ARE REAL. The precondition says that every entry of both arrays has a magnitude below +∞: it is the
  conjunction of two reductions by `and`, each over all entries, of the comparison |entry| < +∞. An extended real whose
  magnitude max (x, −x) is below +∞ is neither +∞ nor −∞, so it is a real number.
-/
import proofs.«150394_j76304388981477_1_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

/-- The word the magnitudes are compared with denotes +∞. -/
theorem ofBits_inf : Ideal.ofBits .f32 0x7F800000#32 = ⊤ := by
  simp [Ideal.ofBits, Ideal.ieee]

/-- An extended real with magnitude below +∞ is a real. -/
theorem real_of_abs_lt_top (x : EReal) (h : max x (-x) < ⊤) : ∃ r : ℝ, x = r := by
  induction x using EReal.rec with
  | bot => exact absurd h (by simp)
  | coe r => exact ⟨r, rfl⟩
  | top => exact absurd h (by simp)

/-- The comparison's bit at an entry says the entry is real. -/
theorem real_of_cmp (x : EReal) (h : Ideal.cmp .olt (max x (-x)) (Ideal.ofBits .f32 0x7F800000#32) = 1#1) :
    ∃ r : ℝ, x = r := by
  refine real_of_abs_lt_top x ?_
  rw [ofBits_inf] at h
  by_contra hn
  have : Ideal.cmp .olt (max x (-x)) ⊤ = 0#1 := by
    unfold Ideal.cmp
    simp [hn]
  rw [this] at h
  exact absurd h (by decide)

instance : Subsingleton S_.Idx := ⟨fun a b => funext fun d => d.elim0⟩

/-- Under the precondition every entry of both arrays is a real number. -/
theorem real_of_pre [Cert.Pre_finite_inputs.Facts] (x : FVec Ideal S4x2048x1024 .f32) (k : FVec Ideal S1024x4096 .f32)
    (h : Cert.Pre_finite_inputs.fn (F := Ideal) x k = fun _ => 1#1) :
    (∀ i, ∃ r : ℝ, x i = r) ∧ (∀ i, ∃ r : ℝ, k i = r) := by
  have h0 := congrFun h ix0
  dsimp only [Cert.Pre_finite_inputs.fn] at h0
  obtain ⟨hx, hk⟩ := IntOp.andi_eq_one.1 h0
  constructor
  · intro i
    exact real_of_cmp (x i) (Host.reduce_andi_all _ _ _ _ ix0 hx i)
  · intro i
    exact real_of_cmp (k i) (Host.reduce_andi_all _ _ _ _ ix0 hk i)

end Cert.Finite

end
-- ==== Proof.lean ====
/-
  A FAKE-QUANTISED MATRIX PRODUCT, in two pallas calls, against its jnp reference, over the extended reals.
  Both programs quantise the activations x : [4, 2048, 1024] row by row and the matrix k : [1024, 4096] column by column —
  an entry v becomes round (clip (v / s)) · s with s = max (max |·| / 127, ε) taken over the entry's row, respectively
  column — and contract the two over the shared axis. The kernel computes the rounded level directly and narrows it to
  bf16, which is the identity on extended reals; the reference writes v / s + (level − v / s), and the difference cancels
  because, under the precondition, every entry is a real number and so is every quotient v / s (the scale of a vector of
  reals is a positive real). The contraction is the same sum over 1024 products on both sides: the kernel's matrix
  product into a zero accumulator, block by block, and the reference's dot product.
  The frames of the two kernel programs are the generated ones; the reference's frame is its generated run with the
  result dropped; nothing was rewritten by the ideal pass, so `preserves` holds trivially.
-/
import proofs.«150394_j76304388981477_1_alg».proof.Defs
import proofs.«150394_j76304388981477_1_alg».proof.Proof.Gen.Kernel
import proofs.«150394_j76304388981477_1_alg».proof.Proof.Gen.Kernel.Skeleton
import proofs.«150394_j76304388981477_1_alg».proof.Proof.Gen.Kernel.Launch
import proofs.«150394_j76304388981477_1_alg».proof.Proof.Gen.Kernel.Points
import proofs.«150394_j76304388981477_1_alg».proof.Proof.Gen.Kernel.Frame
import proofs.«150394_j76304388981477_1_alg».proof.Proof.Gen.KernelIdeal
import proofs.«150394_j76304388981477_1_alg».proof.Proof.Gen.KernelIdeal.Skeleton
import proofs.«150394_j76304388981477_1_alg».proof.Proof.Gen.KernelIdeal.Launch
import proofs.«150394_j76304388981477_1_alg».proof.Proof.Gen.KernelIdeal.Points
import proofs.«150394_j76304388981477_1_alg».proof.Proof.Gen.KernelIdeal.Frame
import proofs.«150394_j76304388981477_1_alg».proof.Proof.Gen.ReferenceIdeal
import proofs.«150394_j76304388981477_1_alg».proof.Proof.Gen.Pre_finite_inputs
import proofs.«150394_j76304388981477_1_alg».proof.Proof.Gen.ReferenceIdeal.Run
import proofs.«150394_j76304388981477_1_alg».proof.Proof.Gen.ReferenceIdeal.Read
import proofs.«150394_j76304388981477_1_alg».proof.Proof.KernelValue
import proofs.«150394_j76304388981477_1_alg».proof.Proof.Bridge
import proofs.«150394_j76304388981477_1_alg».proof.Proof.Finite
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the two arguments, both programs end with the quantised contraction of the arguments in
    their result buffers: the kernel program by its two calls' write-backs, the reference by its run, whose
    straight-through terms cancel on the real entries the precondition gives. -/
theorem algebraic : Cert.algebraic_KernelIdeal_ReferenceIdeal := by
  intro m ρ m' ρ' hpre hagree
  refine ⟨fun c => Cert.FakeQuant.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2]
  obtain ⟨hx, hk⟩ := Cert.Finite.real_of_pre _ _ (hpre c)
  exact Cert.ReferenceIdeal.RefValue.result_eq _ _ hx hk

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
